-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x128x128 : Shape := ⟨4, ![32, 256, 128, 128]⟩
abbrev S64x256 : Shape := ⟨2, ![64, 256]⟩
abbrev S256x64 : Shape := ⟨2, ![256, 64]⟩
abbrev S2x256 : Shape := ⟨2, ![2, 256]⟩
abbrev S2 : Shape := ⟨1, ![2]⟩
abbrev S_ : Shape := ⟨0, ![]⟩

class Facts : Prop where
  bcast_S_S32x256x128x128 : S_.BroadcastsInDim S32x256x128x128 (![] : Fin 0 → Fin S32x256x128x128.rank)
  reducesTo_S32x256x128x128_S_d0_1_2_3 : S32x256x128x128.ReducesTo [0, 1, 2, 3] S_
  h_S_ : 0 < S_.numel
  bcast_S_S64x256 : S_.BroadcastsInDim S64x256 (![] : Fin 0 → Fin S64x256.rank)
  reducesTo_S64x256_S_d0_1 : S64x256.ReducesTo [0, 1] S_
  bcast_S_S256x64 : S_.BroadcastsInDim S256x64 (![] : Fin 0 → Fin S256x64.rank)
  reducesTo_S256x64_S_d0_1 : S256x64.ReducesTo [0, 1] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S2x256 1) : IVec S_ 1 :=
  let main_c_5 : IVec S_ 1 := constantI S_ 1 1#1
  let main_v17 : IVec S_ 1 := (fun x v => Host.reduce IntOp.andi x v reducesTo_S2x256_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S32x256x128x128 .f32) (main_arg1 : FVec F S64x256 .f32) (main_arg2 : FVec F S256x64 .f32) (main_arg3 : FVec F S2x256 .f32) (main_arg4 : FVec F S2 .f32) : IVec S_ 1 :=
  let main_v0 : FVec F S32x256x128x128 .f32 := Host.absf main_arg0
  let main_cst : FVec F S_ .f32 := constant S_ .f32 0x7F800000#32
  let main_v1 : FVec F S32x256x128x128 .f32 := broadcastInDim S32x256x128x128 ![] bcast_S_S32x256x128x128 main_cst
  let main_v2 : IVec S32x256x128x128 1 := cmpf .olt main_v0 main_v1
  let main_c : IVec S_ 1 := constantI S_ 1 1#1
  let main_v3 : IVec S_ 1 := (fun x v => Host.reduce IntOp.andi x v reducesTo_S32x256x128x128_S_d0_1_2_3 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S2x256 .f32 := Host.absf main_arg3
  let main_cst_4 : FVec F S_ .f32 := constant S_ .f32 0x7F800000#32
  let main_v15 : FVec F S2x256 .f32 := broadcastInDim S2x256 ![] bcast_S_S2x256 main_cst_4
  let main_v16 : IVec S2x256 1 := cmpf .olt main_v14 main_v15
  fn_part1 (F := F) main_arg4 main_v13 main_v16
-- ==== Kernel.lean ====
abbrev S32x256x128x128 : Shape := ⟨4, ![32, 256, 128, 128]⟩
abbrev S64x256 : Shape := ⟨2, ![64, 256]⟩
abbrev S256x64 : Shape := ⟨2, ![256, 64]⟩
abbrev S2x256 : Shape := ⟨2, ![2, 256]⟩
abbrev S2 : Shape := ⟨1, ![2]⟩
abbrev S32x256 : Shape := ⟨2, ![32, 256]⟩
abbrev S8x128x32x128 : Shape := ⟨4, ![8, 128, 32, 128]⟩
abbrev S8x128 : Shape := ⟨2, ![8, 128]⟩
abbrev S8x128x32 : Shape := ⟨3, ![8, 128, 32]⟩
abbrev S32x64 : Shape := ⟨2, ![32, 64]⟩
abbrev S_ : Shape := ⟨0, ![]⟩
abbrev S256x2 : Shape := ⟨2, ![256, 2]⟩
abbrev S32x2 : Shape := ⟨2, ![32, 2]⟩
abbrev S1x2 : Shape := ⟨2, ![1, 2]⟩

abbrev nBuf : Space → Nat
  | .hbm => 27
  | .vmem => 4
  | .smem => 0
  | _ => 0

abbrev bufTy : (tb : Table) → Fin (tcTables nBuf tb) → BufTy
  | .hbm, ⟨0, _⟩ => ⟨S32x256x128x128, .f32⟩
  | .hbm, ⟨1, _⟩ => ⟨S64x256, .f32⟩
  | .hbm, ⟨2, _⟩ => ⟨S256x64, .f32⟩
  | .hbm, ⟨3, _⟩ => ⟨S2x256, .f32⟩
  | .hbm, ⟨4, _⟩ => ⟨S2, .f32⟩
  | .hbm, ⟨5, _⟩ => ⟨S32x256, .f32⟩
  | .hbm, ⟨6, _⟩ => ⟨S256x64, .f32⟩
  | .hbm, ⟨7, _⟩ => ⟨S32x64, .f32⟩
  | .hbm, ⟨8, _⟩ => ⟨S_, .f32⟩
  | .hbm, ⟨9, _⟩ => ⟨S32x64, .f32⟩
  | .hbm, ⟨10, _⟩ => ⟨S32x64, .f32⟩
  | .hbm, ⟨11, _⟩ => ⟨S64x256, .f32⟩
  | .hbm, ⟨12, _⟩ => ⟨S32x256, .f32⟩
  | .hbm, ⟨13, _⟩ => ⟨S32x256, .f32⟩
  | .hbm, ⟨14, _⟩ => ⟨S32x256, .f32⟩
  | .hbm, ⟨15, _⟩ => ⟨S_, .f32⟩
  | .hbm, ⟨16, _⟩ => ⟨S32x256, .f32⟩
  | .hbm, ⟨17, _⟩ => ⟨S32x256, .f32⟩
  | .hbm, ⟨18, _⟩ => ⟨S_, .f32⟩
  | .hbm, ⟨19, _⟩ => ⟨S32x256, .f32⟩
  | .hbm, ⟨20, _⟩ => ⟨S32x256, .f32⟩
  | .hbm, ⟨21, _⟩ => ⟨S32x256, .f32⟩
  | .hbm, ⟨22, _⟩ => ⟨S256x2, .f32⟩
  | .hbm, ⟨23, _⟩ => ⟨S32x2, .f32⟩
  | .hbm, ⟨24, _⟩ => ⟨S1x2, .f32⟩
  | .hbm, ⟨25, _⟩ => ⟨S32x2, .f32⟩
  | .hbm, ⟨26, _⟩ => ⟨S32x2, .f32⟩
  | .local _ .vmem, ⟨0, _⟩ => ⟨S8x128x32x128, .f32⟩
  | .local _ .vmem, ⟨1, _⟩ => ⟨S8x128x32x128, .f32⟩
  | .local _ .vmem, ⟨2, _⟩ => ⟨S8x128, .f32⟩
  | .local _ .vmem, ⟨3, _⟩ => ⟨S8x128, .f32⟩
  | _, _ => ⟨S32x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x128x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

class Facts₀ : Prop where
  inb_S8x128_S8x128_0_0 : ∀ a, (![0, 0] : Fin 2 → Nat) a + S8x128.size a ≤ S8x128.size a
  h_S8x128 : 0 < S8x128.numel
  inb_S8x128x32x128_S8x128x32x128_0_0_0_0 : ∀ a, (![0, 0, 0, 0] : Fin 4 → Nat) a + S8x128x32x128.size a ≤ S8x128x32x128.size a
  h_S8x128x32x128 : 0 < S8x128x32x128.numel
  reduces_S8x128x32x128_S8x128x32 : S8x128x32x128.Reduces [3] S8x128x32
  reduces_S8x128x32_S8x128 : S8x128x32.Reduces [2] S8x128
  shapeCasts_S8x128_S8x128 : S8x128.ShapeCasts S8x128
  transposes_S64x256_S256x64_1_0 : S64x256.Transposes [1, 0] S256x64
  bcast_S_S32x64 : S_.BroadcastsInDim S32x64 (![] : Fin 0 → Fin S32x64.rank)
  transposes_S256x64_S64x256_1_0 : S256x64.Transposes [1, 0] S64x256
  bcast_S_S32x256 : S_.BroadcastsInDim S32x256 (![] : Fin 0 → Fin S32x256.rank)
  transposes_S2x256_S256x2_1_0 : S2x256.Transposes [1, 0] S256x2
  bcast_S2_S1x2_1 : S2.BroadcastsInDim S1x2 (![1] : Fin 1 → Fin S1x2.rank)
  bcast_S1x2_S32x2_0_1 : S1x2.BroadcastsInDim S32x2 (![0, 1] : Fin 2 → Fin S32x2.rank)
  dot_S32x256_S256x64_S32x64_1_0_0_1_n_n_wf : DotDims.WF S32x256 S256x64 S32x64 [1] [0] [0] [1] [] []
  dot_S32x64_S64x256_S32x256_1_0_0_1_n_n_wf : DotDims.WF S32x64 S64x256 S32x256 [1] [0] [0] [1] [] []
  dot_S32x256_S256x2_S32x2_1_0_0_1_n_n_wf : DotDims.WF S32x256 S256x2 S32x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x32x128.size a ≤ S32x256x128x128.size a
  hwx0_0 : ∀ i : grid0.Coords, EltTy.bits .f32 = 32 ∨ (Rect.block (s := S32x256x128x128) S8x128x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x256.size a
  hwx0_1 : ∀ i : grid0.Coords, EltTy.bits .f32 = 32 ∨ (Rect.block (s := S32x256) S8x128.size (cc0_transform_1 i) (hinb0_1 i)).WholeWords (EltTy.packing .f32)

variable [Facts₀]

def dot_S32x256_S256x64_S32x64_1_0_0_1_n_n : DotDims S32x256 S256x64 S32x64 where
  lhsContracting := [1]
  rhsContracting := [0]
  lhsNonContracting := [0]
  rhsNonContracting := [1]
  lhsBatch := []
  rhsBatch := []
  wf := dot_S32x256_S256x64_S32x64_1_0_0_1_n_n_wf
def dot_S32x64_S64x256_S32x256_1_0_0_1_n_n : DotDims S32x64 S64x256 S32x256 where
  lhsContracting := [1]
  rhsContracting := [0]
  lhsNonContracting := [0]
  rhsNonContracting := [1]
  lhsBatch := []
  rhsBatch := []
  wf := dot_S32x64_S64x256_S32x256_1_0_0_1_n_n_wf
def dot_S32x256_S256x2_S32x2_1_0_0_1_n_n : DotDims S32x256 S256x2 S32x2 where
  lhsContracting := [1]
  rhsContracting := [0]
  lhsNonContracting := [0]
  rhsNonContracting := [1]
  lhsBatch := []
  rhsBatch := []
  wf := dot_S32x256_S256x2_S32x2_1_0_0_1_n_n_wf

abbrev win0_0 : Pipeline.Window sig grid0 :=
  Pipeline.Window.ofSpec (Memref.whole main_arg0) S8x128x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x256x128x128 : Shape := ⟨4, ![32, 256, 128, 128]⟩
abbrev S64x256 : Shape := ⟨2, ![64, 256]⟩
abbrev S256x64 : Shape := ⟨2, ![256, 64]⟩
abbrev S2x256 : Shape := ⟨2, ![2, 256]⟩
abbrev S2 : Shape := ⟨1, ![2]⟩
abbrev S_ : Shape := ⟨0, ![]⟩
abbrev S32x256 : Shape := ⟨2, ![32, 256]⟩
abbrev S32x64 : Shape := ⟨2, ![32, 64]⟩
abbrev S32x256x1x1 : Shape := ⟨4, ![32, 256, 1, 1]⟩
abbrev S256x2 : Shape := ⟨2, ![256, 2]⟩
abbrev S32x2 : Shape := ⟨2, ![32, 2]⟩
abbrev S1x2 : Shape := ⟨2, ![1, 2]⟩

abbrev nBuf : Space → Nat
  | .hbm => 38
  | .vmem => 0
  | .smem => 0
  | _ => 0

abbrev bufTy : (tb : Table) → Fin (tcTables nBuf tb) → BufTy
  | .hbm, ⟨0, _⟩ => ⟨S32x256x128x128, .f32⟩
  | .hbm, ⟨1, _⟩ => ⟨S64x256, .f32⟩
  | .hbm, ⟨2, _⟩ => ⟨S256x64, .f32⟩
  | .hbm, ⟨3, _⟩ => ⟨S2x256, .f32⟩
  | .hbm, ⟨4, _⟩ => ⟨S2, .f32⟩
  | .hbm, ⟨5, _⟩ => ⟨S_, .f32⟩
  | .hbm, ⟨6, _⟩ => ⟨S32x256, .f32⟩
  | .hbm, ⟨7, _⟩ => ⟨S_, .f32⟩
  | .hbm, ⟨8, _⟩ => ⟨S32x256, .f32⟩
  | .hbm, ⟨9, _⟩ => ⟨S32x256, .f32⟩
  | .hbm, ⟨10, _⟩ => ⟨S256x64, .f32⟩
  | .hbm, ⟨11, _⟩ => ⟨S32x64, .f32⟩
  | .hbm, ⟨12, _⟩ => ⟨S_, .f32⟩
  | .hbm, ⟨13, _⟩ => ⟨S32x64, .f32⟩
  | .hbm, ⟨14, _⟩ => ⟨S32x64, .f32⟩
  | .hbm, ⟨15, _⟩ => ⟨S64x256, .f32⟩
  | .hbm, ⟨16, _⟩ => ⟨S32x256, .f32⟩
  | .hbm, ⟨17, _⟩ => ⟨S32x256, .f32⟩
  | .hbm, ⟨18, _⟩ => ⟨S32x256, .f32⟩
  | .hbm, ⟨19, _⟩ => ⟨S_, .f32⟩
  | .hbm, ⟨20, _⟩ => ⟨S32x256, .f32⟩
  | .hbm, ⟨21, _⟩ => ⟨S32x256, .f32⟩
  | .hbm, ⟨22, _⟩ => ⟨S_, .f32⟩
  | .hbm, ⟨23, _⟩ => ⟨S32x256, .f32⟩
  | .hbm, ⟨24, _⟩ => ⟨S32x256, .f32⟩
  | .hbm, ⟨25, _⟩ => ⟨S32x256x1x1, .f32⟩
  | .hbm, ⟨26, _⟩ => ⟨S32x256x128x128, .f32⟩
  | .hbm, ⟨27, _⟩ => ⟨S32x256x128x128, .f32⟩
  | .hbm, ⟨28, _⟩ => ⟨S_, .f32⟩
  | .hbm, ⟨29, _⟩ => ⟨S32x256, .f32⟩
  | .hbm, ⟨30, _⟩ => ⟨S_, .f32⟩
  | .hbm, ⟨31, _⟩ => ⟨S32x256, .f32⟩
  | .hbm, ⟨32, _⟩ => ⟨S32x256, .f32⟩
  | .hbm, ⟨33, _⟩ => ⟨S256x2, .f32⟩
  | .hbm, ⟨34, _⟩ => ⟨S32x2, .f32⟩
  | .hbm, ⟨35, _⟩ => ⟨S1x2, .f32⟩
  | .hbm, ⟨36, _⟩ => ⟨S32x2, .f32⟩
  | .hbm, ⟨37, _⟩ => ⟨S32x2, .f32⟩
  | _, _ => ⟨S32x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  reducesTo_S32x256x128x128_S32x256_d2_3 : S32x256x128x128.ReducesTo [2, 3] S32x256
  h_S_ : 0 < S_.numel
  bcast_S_S32x256 : S_.BroadcastsInDim S32x256 (![] : Fin 0 → Fin S32x256.rank)
  transposes_S64x256_S256x64_1_0 : S64x256.Transposes [1, 0] S256x64
  bcast_S_S32x64 : S_.BroadcastsInDim S32x64 (![] : Fin 0 → Fin S32x64.rank)
  transposes_S256x64_S64x256_1_0 : S256x64.Transposes [1, 0] S64x256
  bcast_S32x256_S32x256x1x1_0_1 : S32x256.BroadcastsInDim S32x256x1x1 (![0, 1] : Fin 2 → Fin S32x256x1x1.rank)
  bcast_S32x256x1x1_S32x256x128x128_0_1_2_3 : S32x256x1x1.BroadcastsInDim S32x256x128x128 (![0, 1, 2, 3] : Fin 4 → Fin S32x256x128x128.rank)
  transposes_S2x256_S256x2_1_0 : S2x256.Transposes [1, 0] S256x2
  bcast_S2_S1x2_1 : S2.BroadcastsInDim S1x2 (![1] : Fin 1 → Fin S1x2.rank)
  bcast_S1x2_S32x2_0_1 : S1x2.BroadcastsInDim S32x2 (![0, 1] : Fin 2 → Fin S32x2.rank)
  dot_S32x256_S256x64_S32x64_1_0_0_1_n_n_wf : DotDims.WF S32x256 S256x64 S32x64 [1] [0] [0] [1] [] []
  dot_S32x64_S64x256_S32x256_1_0_0_1_n_n_wf : DotDims.WF S32x64 S64x256 S32x256 [1] [0] [0] [1] [] []
  dot_S32x256_S256x2_S32x2_1_0_0_1_n_n_wf : DotDims.WF S32x256 S256x2 S32x2 [1] [0] [0] [1] [] []

variable [Facts₀]

def dot_S32x256_S256x64_S32x64_1_0_0_1_n_n : DotDims S32x256 S256x64 S32x64 where
  lhsContracting := [1]
  rhsContracting := [0]
  lhsNonContracting := [0]
  rhsNonContracting := [1]
  lhsBatch := []
  rhsBatch := []
  wf := dot_S32x256_S256x64_S32x64_1_0_0_1_n_n_wf
def dot_S32x64_S64x256_S32x256_1_0_0_1_n_n : DotDims S32x64 S64x256 S32x256 where
  lhsContracting := [1]
  rhsContracting := [0]
  lhsNonContracting := [0]
  rhsNonContracting := [1]
  lhsBatch := []
  rhsBatch := []
  wf := dot_S32x64_S64x256_S32x256_1_0_0_1_n_n_wf
def dot_S32x256_S256x2_S32x2_1_0_0_1_n_n : DotDims S32x256 S256x2 S32x2 where
  lhsContracting := [1]
  rhsContracting := [0]
  lhsNonContracting := [0]
  rhsNonContracting := [1]
  lhsBatch := []
  rhsBatch := []
  wf := dot_S32x256_S256x2_S32x2_1_0_0_1_n_n_wf

class Facts : Prop extends Facts₀ where

variable [Facts]
-- ==== Proof.Stored.lean ====
/-
  What one grid step leaves in the output block, as a value of what it found there.

  A step of the pooling kernel adds, to the 8 × 128 block of running sums, the sums of its 8 × 128 × 32 × 128 input
  block over the two trailing axes. The first step along the row axis first clears the running sums; the last one
  rescales the updated sums by 2^(-14). So, with `upd x s = s + Σ_h Σ_w x` and `scl s = s * 2^(-14)`:

    first step   : upd x 0
    middle steps : upd x s
    last step    : scl (upd x s)

  where `s` is what the step before left. Each is read off the stores the step makes: the last store of a block covers
  it, and a load of the block after a covering store reads that store's value back.
-/
import proofs.«115145_j31842887533075_1_alg».proof.Proof.Gen.KernelIdeal.Frame
import Idealize.ShloMosaic.Lib.Pipeline.Value
import Idealize.ShloMosaic.Lib.Tactic

noncomputable section

namespace Cert.KernelIdeal.Stored

open Idealize.ShloMosaic Idealize.ShloMosaic.TcCoe Idealize.SL.Sem
open Cert.KernelIdeal Cert.KernelIdeal.Gen

variable {F : FTy → Type} [FloatOps F]

theorem origin2 : (![0, 0] : Fin 2 → Nat) = fun _ => 0 := funext fun a => by fin_cases a <;> rfl
theorem origin4 : (![0, 0, 0, 0] : Fin 4 → Nat) = fun _ => 0 := funext fun a => by fin_cases a <;> rfl

/-- A middle step: the one store writes the update of what the block held. -/
theorem middle (c : Dev nD) (i : grid0.Coords) (a3 : Memref sig .tc .vmem S8x128x32x128 .f32) (h3 : a3.IsWhole)
    (a4 : Memref sig .tc .vmem S8x128 .f32) (h4 : a4.IsWhole) (hc0 : ¬cond0_0 i) (hc1 : ¬cond0_1 i)
    (x : Vec F S8x128x32x128 .f32) (s : Vec F S8x128 .f32) :
    out0_B_1 c i a3 h3 a4 h4 hc0 hc1 x s = k0_pay2 x s := by
  unfold out0_B_1
  rw [View.read_writes_eq_canon _ _ _ (cover0_B_1 c i a3 h3 a4 h4 hc0 hc1 x s)]
  unfold kernelRun0_B
  dsimp only
  sl_unfold_words
  rw [View.canon_unit_zero origin2]
  simp only [View.readAt_eq_ld, h3.read_unread, h4.read_unread, View.ld_unit_zero (S := S8x128x32x128) origin4,
    View.ld_unit_zero (S := S8x128) origin2]

/-- The first step: the block is cleared, and the update reads the cleared block back. -/
theorem first (c : Dev nD) (i : grid0.Coords) (a3 : Memref sig .tc .vmem S8x128x32x128 .f32) (h3 : a3.IsWhole)
    (a4 : Memref sig .tc .vmem S8x128 .f32) (h4 : a4.IsWhole) (hc0 : cond0_0 i) (hc1 : ¬cond0_1 i)
    (x : Vec F S8x128x32x128 .f32) :
    out0_A_1 c i a3 h3 a4 h4 hc0 hc1 x = k0_pay2 x k0_pay1 := by
  unfold out0_A_1
  rw [View.read_writes_eq_canon _ _ _ (cover0_A_1 c i a3 h3 a4 h4 hc0 hc1 x)]
  unfold kernelRun0_A
  dsimp only
  sl_unfold_words
  rw [View.canon_cons_unit_zero (S := S8x128) origin2, View.readCov_unit_zero (S := S8x128) _ origin2]
  simp only [View.readAt_eq_ld, h3.read_unread, View.ld_unit_zero (S := S8x128x32x128) origin4]

/-- The last step: the update is stored, read back, rescaled and stored again. -/
theorem last (c : Dev nD) (i : grid0.Coords) (a3 : Memref sig .tc .vmem S8x128x32x128 .f32) (h3 : a3.IsWhole)
    (a4 : Memref sig .tc .vmem S8x128 .f32) (h4 : a4.IsWhole) (hc0 : ¬cond0_0 i) (hc1 : cond0_1 i)
    (x : Vec F S8x128x32x128 .f32) (s : Vec F S8x128 .f32) :
    out0_C_1 c i a3 h3 a4 h4 hc0 hc1 x s = k0_pay3 (k0_pay2 x s) := by
  unfold out0_C_1
  rw [View.read_writes_eq_canon _ _ _ (cover0_C_1 c i a3 h3 a4 h4 hc0 hc1 x s)]
  unfold kernelRun0_C
  dsimp only
  sl_unfold_words
  rw [View.canon_cons_unit_zero (S := S8x128) origin2, View.readCov_unit_zero (S := S8x128) _ origin2]
  simp only [View.readAt_eq_ld, h3.read_unread, h4.read_unread, View.ld_unit_zero (S := S8x128x32x128) origin4,
    View.ld_unit_zero (S := S8x128) origin2]

end Cert.KernelIdeal.Stored

end
-- ==== Proof.MeanLaws.lean ====
/-
  The algebra that joins the two programs, over the extended reals.

  Both programs scale a mean over the two trailing axes of x by a gate g = 1 / (1 + e^(-z)); one multiplies the mean by
  the gate, the other takes the mean of the products x * g. The two agree because every entry of x is a real (the
  precondition) and the gate is a real whatever z is: over reals a common factor leaves a finite sum.

  * the float literals both programs spell: 1, 16384 and its reciprocal 2^(-14), as extended reals;
  * `gate_real`: 1 / (1 + e^(-z)) is a real for every extended real z (0 at -∞, 1 at +∞);
  * `coe_sum`: the embedding of the reals commutes with finite sums;
  * `pull_factor`: (0 + Σ xᵢ * g) / c = ((0 + Σ xᵢ) / c) * g for reals xᵢ, g and c ≠ 0;
  * `sum_over_trailing`: the entries of a [32,256,128,128] array that a sum over axes 2 and 3 collects at (b, c) are
    the 128 × 128 entries (b, c, h, w).
-/
import Idealize.ShloMosaic.PureOps.Ideal
import Idealize.ShloMosaic.PureOps.Reduce
import Idealize.ShloMosaic.Lib.ValueIdx
import Mathlib.Algebra.BigOperators.Group.Finset.Basic
import Mathlib.Algebra.BigOperators.Ring.Finset
import Mathlib.Data.Fintype.BigOperators

noncomputable section

namespace Cert.MeanLaws

open Idealize.ShloMosaic Idealize.ShloMosaic.ValueIdx

/-! ## The literals -/

/-- The pattern of `1.0` denotes 1. -/
theorem ofBits_one : Ideal.ofBits .f32 0x3F800000#32 = 1 := by
  simp [Ideal.ofBits, Ideal.ieee, -EReal.coe_mul]; norm_num

/-- The pattern of `16384.0` denotes the real 16384 = 2^14. -/
theorem ofBits_16384 : Ideal.ofBits .f32 0x46800000#32 = ((16384 : ℝ) : EReal) := by
  simp [Ideal.ofBits, Ideal.ieee, -EReal.coe_mul]; norm_num

/-- The pattern of `6.10351563e-5` denotes exactly 2^(-14) = 1/16384: a dyadic, so the folded reciprocal is exact. -/
theorem ofBits_inv16384 : Ideal.ofBits .f32 0x38800000#32 = ((1 / 16384 : ℝ) : EReal) := by
  simp [Ideal.ofBits, Ideal.ieee, -EReal.coe_mul]; norm_num

/-! ## The gate is a real -/

/-- `1 / (1 + e^(-z))` is a real number at every extended real `z`: 0 at -∞, 1 at +∞, and in between the usual value. -/
theorem gate_real (z : EReal) : ∃ r : ℝ, Ideal.div 1 (1 + Ideal.exp (-z)) = (r : EReal) := by
  show ∃ r : ℝ, Ideal.logistic z = (r : EReal)
  induction z using EReal.rec with
  | bot => exact ⟨0, by rw [Ideal.logistic_bot]; rfl⟩
  | coe r => exact ⟨_, Ideal.logistic_coe r⟩
  | top => exact ⟨1, by rw [Ideal.logistic_top]; rfl⟩

/-! ## A real factor leaves a finite sum of reals -/

/-- The embedding of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For reals `xᵢ`, `g` and `c ≠ 0`: the mean of the products `xᵢ * g` is the mean of the `xᵢ` times `g`. -/
theorem pull_factor {ι : Type*} (s : Finset ι) (x : ι → ℝ) (g c : ℝ) (hc : c ≠ 0) :
    Ideal.div (0 + ∑ i ∈ s, (x i : EReal) * (g : EReal)) (c : EReal)
      = Ideal.div (0 + ∑ i ∈ s, (x i : EReal)) (c : EReal) * (g : EReal) := by
  rw [Ideal.div_coe hc, Ideal.div_coe hc, zero_add, zero_add]
  simp only [← EReal.coe_mul]
  rw [← coe_sum, ← coe_sum, ← EReal.coe_mul, ← EReal.coe_mul, ← EReal.coe_mul, ← Finset.sum_mul]
  congr 1
  ring

/-! ## A sum over the two trailing axes -/

/-- The array of the pooled tensor and of its per-channel means. -/
abbrev SX : Shape := ⟨4, ![32, 256, 128, 128]⟩
abbrev SM : Shape := ⟨2, ![32, 256]⟩

/-- Dropping axes 2 and 3 of (b, c, h, w) keeps b on axis 0 -/
theorem drop_axis0 (hR : SX.ReducesTo [2, 3] SM) (i : SX.Idx) : (hR.drop i 0).val = (i 0).val :=
  hR.drop_apply_val_of_eq i 0 0
/-- and c on axis 1. -/
theorem drop_axis1 (hR : SX.ReducesTo [2, 3] SM) (i : SX.Idx) : (hR.drop i 1).val = (i 1).val :=
  hR.drop_apply_val_of_eq i 1 1

/-- Summing a [32,256,128,128] array over axes 2 and 3 collects, at (b, c), exactly the entries (b, c, h, w). -/
theorem sum_over_trailing {M : Type*} [AddCommMonoid M] (hR : SX.ReducesTo [2, 3] SM) (f : SX.Idx → M) (j : SM.Idx) :
    ∑ i ∈ Finset.univ.filter (fun i => hR.drop i = j), f i
      = ∑ h : Fin 128, ∑ w : Fin 128, f (ix4 (j 0) (j 1) h w) := by
  rw [← Finset.sum_product']
  symm
  refine Finset.sum_bij (fun p _ => ix4 (j 0) (j 1) p.1 p.2) ?_ ?_ ?_ (fun _ _ => rfl)
  · intro p _
    rw [Finset.mem_filter]
    refine ⟨Finset.mem_univ _, funext fun b => Fin.ext ?_⟩
    match b with
    | ⟨0, _⟩ => exact drop_axis0 hR _
    | ⟨1, _⟩ => exact drop_axis1 hR _
  · intro p _ q _ h
    have h2 := congrFun h 2
    have h3 := congrFun h 3
    exact Prod.ext h2 h3
  · intro i hi
    rw [Finset.mem_filter] at hi
    have hd := hi.2
    refine ⟨(i 2, i 3), Finset.mem_product.mpr ⟨Finset.mem_univ _, Finset.mem_univ _⟩, ?_⟩
    funext a
    apply Fin.ext
    match a with
    | ⟨0, _⟩ => exact ((drop_axis0 hR i).symm.trans (congrArg (fun k : SM.Idx => (k 0).val) hd)).symm
    | ⟨1, _⟩ => exact ((drop_axis1 hR i).symm.trans (congrArg (fun k : SM.Idx => (k 1).val) hd)).symm
    | ⟨2, _⟩ => rfl
    | ⟨3, _⟩ => rfl

/-! ## The pooled array -/

/-- The mean of x over its two trailing axes, written as the kernel computes it: the sum times 2^(-14). -/
def pooled (x : SX.Idx → EReal) : SM.Idx → EReal :=
  fun j => (∑ h : Fin 128, ∑ w : Fin 128, x (ix4 (j 0) (j 1) h w)) * ((1 / 16384 : ℝ) : EReal)

/-- The reference's mean, zero plus the sum over axes 2 and 3, divided by 16384, is the pooled array: dividing by a
    nonzero real is multiplying by its reciprocal, at the infinities too. -/
theorem mean_eq_pooled (hR : SX.ReducesTo [2, 3] SM) (x : SX.Idx → EReal) (j : SM.Idx) :
    Ideal.div (0 + ∑ i ∈ Finset.univ.filter (fun i => hR.drop i = j), x i) ((16384 : ℝ) : EReal) = pooled x j := by
  rw [Ideal.div_coe (by norm_num : (16384 : ℝ) ≠ 0), zero_add, sum_over_trailing hR x j]
  rfl

end Cert.MeanLaws

end
-- ==== Proof.Arith.lean ====
/-
  The arithmetic of one grid step, entry by entry, over the extended reals.

  With x an 8 × 128 × 32 × 128 input block and s the 8 × 128 block of running sums:

    cleared        : every entry 0
    update x s     : at (p, q),  s (p, q) + Σ_{h < 32} Σ_{w < 128} x (p, q, h, w)
    rescale s      : at (p, q),  s (p, q) * 2^(-14)

  The update sums the lanes (axis 3) first and the rows (axis 2) second; each is a plain finite sum, and the same-shape
  cast between the load and the addition is the identity.
-/
import proofs.«115145_j31842887533075_1_alg».proof.Proof.Gen.KernelIdeal.Skeleton
import proofs.«115145_j31842887533075_1_alg».proof.Proof.MeanLaws
import Idealize.ShloMosaic.Lib.ValueIdx
import Idealize.ShloMosaic.Lib.Pipeline.Value
import Idealize.ShloMosaic.PureOps.Ideal.Laws

noncomputable section

namespace Cert.KernelIdeal.Arith

open Idealize.ShloMosaic Idealize.ShloMosaic.ValueIdx
open Cert.KernelIdeal Cert.KernelIdeal.Gen

/-- The sum of a block over its two trailing axes, at (p, q). -/
def blockSum (x : FVec Ideal S8x128x32x128 .f32) (p : Fin 8) (q : Fin 128) : EReal :=
  ∑ h : Fin 32, ∑ w : Fin 128, x (ix4 p q h w)

/-- Summing the lanes and then the rows of a block is its sum over both trailing axes. -/
theorem lanes_then_rows (x : FVec Ideal S8x128x32x128 .f32) (r3 : S8x128x32x128.Reduces [3] S8x128x32)
    (r2 : S8x128x32.Reduces [2] S8x128) (f3 f2 : FKind.Formats .f32)
    (a3 : (0x00000000#32 : BitVec 32) = FKind.add.neutral .f32 f3) (a2 : (0x00000000#32 : BitVec 32) = FKind.add.neutral .f32 f2)
    (p : Fin 8) (q : Fin 128) :
    multiReduction .add [2] S8x128 (multiReduction .add [3] S8x128x32 x 0x00000000#32 r3 f3 a3) 0x00000000#32 r2 f2 a2 (ix2 p q)
      = blockSum x p q := by
  refine (Ideal.multiReduction_add_single _ _ r2 f2 a2 (ix2 p q)).trans ?_
  refine Finset.sum_congr rfl fun h _ => ?_
  refine (Ideal.multiReduction_add_single x _ r3 f3 a3 _).trans ?_
  refine Finset.sum_congr rfl fun w _ => congrArg x (funext fun a => Fin.ext ?_)
  match a with
  | ⟨0, _⟩ => rfl
  | ⟨1, _⟩ => rfl
  | ⟨2, _⟩ => rfl
  | ⟨3, _⟩ => rfl

/-- The cleared block holds 0 everywhere. -/
theorem cleared_apply (y : S8x128.Idx) : (k0_pay1 (F := Ideal)) y = 0 := by
  show Ideal.ofBits .f32 0x00000000#32 = 0
  exact Ideal.ofBits_zero_f32

/-- The update adds to each running sum the block's sum over its two trailing axes. -/
theorem update_apply (x : FVec Ideal S8x128x32x128 .f32) (s : FVec Ideal S8x128 .f32) (p : Fin 8) (q : Fin 128) :
    k0_pay2 x s (ix2 p q) = s (ix2 p q) + blockSum x p q := by
  unfold k0_pay2
  exact congrArg₂ (· + ·) (congrFun (shapeCast_self s _) (ix2 p q)) (lanes_then_rows x _ _ _ _ _ _ p q)

/-- The rescaling multiplies each running sum by 2^(-14). -/
theorem rescale_apply (s : FVec Ideal S8x128 .f32) (y : S8x128.Idx) :
    k0_pay3 s y = s y * ((1 / 16384 : ℝ) : EReal) := by
  unfold k0_pay3
  exact congrArg₂ (· * ·) (congrFun (shapeCast_self s _) y) Cert.MeanLaws.ofBits_inv16384

end Cert.KernelIdeal.Arith

end
-- ==== Proof.LibTiledSum.lean ====
/-
  Sums over a range cut into equal tiles, in any commutative additive monoid (the extended reals among them: no
  finiteness is used, only that addition commutes and associates).

  * `tile_lt`: position `b` of tile `a` lies inside `A` tiles of length `B`.
  * `sum_fin_tiles`: a sum over `N = A * B` indices is the sum over the tiles of the sums inside each tile.
  * `sum_range_tiles`: the same for a `Finset.range` sum of a function of the naturals.
  * `sum_sum_fin_tiles`: a double sum over a rectangle `(A * BJ) × (C * BK)` is the sum over the `A × C` tiles of the
    double sums inside each `BJ × BK` tile.
-/
import Mathlib.Algebra.BigOperators.Fin
import Mathlib.Algebra.BigOperators.Group.Finset.Basic
import Mathlib.Logic.Equiv.Fin.Basic
import Mathlib.Tactic.Ring

open scoped BigOperators

namespace TiledSum

/-- Position `b` of tile `a`, among `A` tiles of length `B`, is below `A * B`. -/
theorem tile_lt {A B : ℕ} (a : Fin A) (b : Fin B) : a.val * B + b.val < A * B := by
  have ha := a.isLt
  have hb := b.isLt
  calc a.val * B + b.val < a.val * B + B := by omega
    _ = (a.val + 1) * B := by ring
    _ ≤ A * B := Nat.mul_le_mul_right B (by omega)

/-- A sum over `N = A * B` indices, tile by tile. -/
theorem sum_fin_tiles {M : Type*} [AddCommMonoid M] {N : ℕ} (A B : ℕ) (h : N = A * B) (f : Fin N → M) :
    ∑ j : Fin N, f j = ∑ a : Fin A, ∑ b : Fin B, f ⟨a.val * B + b.val, h ▸ tile_lt a b⟩ := by
  subst h
  rw [← Equiv.sum_comp finProdFinEquiv f, Fintype.sum_prod_type]
  refine Finset.sum_congr rfl fun a _ => Finset.sum_congr rfl fun b _ => congrArg f (Fin.ext ?_)
  show b.val + B * a.val = a.val * B + b.val
  ring

/-- A `Finset.range` sum over `A * B` naturals, tile by tile. -/
theorem sum_range_tiles {M : Type*} [AddCommMonoid M] (A B : ℕ) (g : ℕ → M) :
    ∑ s ∈ Finset.range (A * B), g s = ∑ a : Fin A, ∑ b : Fin B, g (a.val * B + b.val) := by
  rw [Finset.sum_range, sum_fin_tiles A B rfl]

/-- A double sum over an `(A * BJ) × (C * BK)` rectangle: over the `A × C` tiles, then inside each `BJ × BK` tile. -/
theorem sum_sum_fin_tiles {M : Type*} [AddCommMonoid M] {NJ NK : ℕ} (A BJ C BK : ℕ) (hJ : NJ = A * BJ) (hK : NK = C * BK)
    (f : Fin NJ → Fin NK → M) :
    ∑ j : Fin NJ, ∑ k : Fin NK, f j k
      = ∑ a : Fin A, ∑ c : Fin C, ∑ jl : Fin BJ, ∑ kl : Fin BK,
          f ⟨a.val * BJ + jl.val, hJ ▸ tile_lt a jl⟩ ⟨c.val * BK + kl.val, hK ▸ tile_lt c kl⟩ := by
  rw [sum_fin_tiles A BJ hJ]
  refine Finset.sum_congr rfl fun a _ => ?_
  exact (Finset.sum_congr rfl fun jl _ => sum_fin_tiles C BK hK _).trans Finset.sum_comm

end TiledSum
-- ==== Proof.Pooled.lean ====
/-
  The kernel's pooled array: what the region leaves in the [32, 256] array of means.

  The grid has 4 × 2 × 4 points, the last axis walking the 128 rows of x in four tiles of 32. At point t the block of
  running sums belongs to batch rows 8 (t / 8) .. +8 and channels 128 ((t / 4) mod 2) .. +128, and the input block holds
  rows 32 (t mod 4) .. +32 of those. The four points of one output block clear, add a tile, add, add, and at the fourth
  rescale; only that fourth point writes the block back. So the block written back holds, at (p, q),

      ((((0 + T₀) + T₁) + T₂) + T₃) * 2^(-14),   T_k = Σ_{h < 32} Σ_{w < 128} x (b, c, 32 k + h, w),

  which is the sum over all 128 rows and 128 lanes times 2^(-14): a finite sum may be taken tile by tile, in any
  commutative monoid. The eight written blocks tile the array, so the whole array ends at the pooled array of x.
-/
import proofs.«115145_j31842887533075_1_alg».proof.Proof.Gen.KernelIdeal.Frame
import proofs.«115145_j31842887533075_1_alg».proof.Proof.Stored
import proofs.«115145_j31842887533075_1_alg».proof.Proof.Arith
import proofs.«115145_j31842887533075_1_alg».proof.Proof.LibTiledSum
import proofs.«115145_j31842887533075_1_alg».proof.Proof.MeanLaws
import Idealize.ShloMosaic.Lib.Pipeline.Value

noncomputable section

namespace Cert.KernelIdeal.Pooled

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Arith

variable (m : (ℓ : Loc nD τ sig) → Buf (Elt Ideal) ℓ) (ρ : Dev nD → PrngReg)

/-- The array x as the region finds it, the input block of point t, and the running sums after point n. -/
abbrev xarr (c : Dev nD) : FVec Ideal S32x256x128x128 .f32 := V m c main_arg0
abbrev xblk (c : Dev nD) (t : Fin cfg0.N) : FVec Ideal S8x128x32x128 .f32 := iblk m c 0 t
abbrev sums (c : Dev nD) (n : ℕ) (hn : n < cfg0.N) : FVec Ideal S8x128 .f32 := outsAt0 m c n hn

/-- The scale 2^(-14). -/
abbrev scale : EReal := ((1 / 16384 : ℝ) : EReal)

/-- The point before t (t itself at the first point, where it is never used). -/
abbrev before (t : Fin cfg0.N) : Fin cfg0.N := ⟨t.val - 1, Nat.lt_of_le_of_lt (Nat.sub_le _ _) t.isLt⟩

/-! ## Where the blocks of a point lie -/

/-- The input block of point t: batch block t / 8, channel block (t / 4) mod 2, row tile t mod 4, all lanes. -/
theorem where_in : ∀ t : Fin cfg0.N, win0_0.index t (0 : Fin 4) = t.val / 8 ∧ win0_0.index t (1 : Fin 4) = (t.val / 4) % 2
    ∧ win0_0.index t (2 : Fin 4) = t.val % 4 ∧ win0_0.index t (3 : Fin 4) = 0 :=
  (by decide +kernel : ∀ t : Fin grid0.N, _)

/-- The output block of point t: batch block t / 8, channel block (t / 4) mod 2. -/
theorem where_out : ∀ t : Fin cfg0.N, win0_1.index t (0 : Fin 2) = t.val / 8 ∧ win0_1.index t (1 : Fin 2) = (t.val / 4) % 2 :=
  (by decide +kernel : ∀ t : Fin grid0.N, _)

/-! ## One tile of rows -/

/-- The sum of x over row tile k (rows 32 k .. 32 k + 31) and all lanes, at batch row b and channel ch. -/
def tileSum (c : Dev nD) (b : Fin 32) (ch : Fin 256) (k : Fin 4) : EReal :=
  ∑ h : Fin 32, ∑ w : Fin 128, xarr m c (ix4 b ch ⟨k.val * 32 + h.val, TiledSum.tile_lt k h⟩ w)

/-- The input block of point u, summed over its two trailing axes at (p, q), is the tile sum of the rows it holds. -/
theorem blockSum_eq (c : Dev nD) (u : Fin cfg0.N) (p : Fin 8) (q : Fin 128) (b : Fin 32) (ch : Fin 256) (k : Fin 4)
    (hb : b.val = (u.val / 8) * 8 + p.val) (hch : ch.val = ((u.val / 4) % 2) * 128 + q.val) (hk : k.val = u.val % 4) :
    blockSum (xblk m c u) p q = tileSum m c b ch k := by
  obtain ⟨e0, e1, e2, e3⟩ := where_in u
  unfold blockSum tileSum
  refine Finset.sum_congr rfl fun h _ => Finset.sum_congr rfl fun w _ => ?_
  show iblk m c 0 u (ix4 p q h w) = V m c main_arg0 _
  unfold iblk
  rw [View.read_apply]
  show V m c main_arg0 _ = V m c main_arg0 _
  refine congrArg (V m c main_arg0) (funext fun a => Fin.ext ?_)
  match a with
  | ⟨0, _⟩ => show win0_0.index u (0 : Fin 4) * 8 + 1 * p.val = b.val; omega
  | ⟨1, _⟩ => show win0_0.index u (1 : Fin 4) * 128 + 1 * q.val = ch.val; omega
  | ⟨2, _⟩ => show win0_0.index u (2 : Fin 4) * 32 + 1 * h.val = k.val * 32 + h.val; omega
  | ⟨3, _⟩ => show win0_0.index u (3 : Fin 4) * 128 + 1 * w.val = w.val; omega

/-! ## The running sums, point by point -/

/-- After a first point: the cleared block updated with the point's input block. -/
theorem sums_first (c : Dev nD) (t : Fin cfg0.N) (h0 : t.val % 4 = 0) (p : Fin 8) (q : Fin 128) :
    sums m c t.val t.isLt (ix2 p q) = 0 + blockSum (xblk m c t) p q :=
  (congrFun ((outsAt0_A m c t h0 (by omega)).trans
      (Stored.first c (grid0.coords t) (ms0_0 t) (hs0_0 t) (ms0_1 t) (hs0_1 t) _ _ (iblk m c 0 t))) (ix2 p q)).trans
    ((update_apply (xblk m c t) (k0_pay1 (F := Ideal)) p q).trans (congrArg (· + blockSum (xblk m c t) p q) (cleared_apply (ix2 p q))))

/-- After a middle point: what the point before left, updated with the point's input block. -/
theorem sums_middle (c : Dev nD) (t : Fin cfg0.N) (h0 : ¬t.val % 4 = 0) (h3 : ¬t.val % 4 = 3) (p : Fin 8) (q : Fin 128) :
    sums m c t.val t.isLt (ix2 p q) = sums m c (before t).val (before t).isLt (ix2 p q) + blockSum (xblk m c t) p q :=
  (congrFun ((outsAt0_B m c t h0 h3).trans
      (Stored.middle c (grid0.coords t) (ms0_0 t) (hs0_0 t) (ms0_1 t) (hs0_1 t) _ _ (iblk m c 0 t)
        (outsAt0 m c (t.val - 1) (Nat.lt_of_le_of_lt (Nat.sub_le _ _) t.isLt)))) (ix2 p q)).trans
    (update_apply (xblk m c t) (sums m c (before t).val (before t).isLt) p q)

/-- After a last point: the same update, rescaled. -/
theorem sums_last (c : Dev nD) (t : Fin cfg0.N) (h0 : ¬t.val % 4 = 0) (h3 : t.val % 4 = 3) (p : Fin 8) (q : Fin 128) :
    sums m c t.val t.isLt (ix2 p q)
      = (sums m c (before t).val (before t).isLt (ix2 p q) + blockSum (xblk m c t) p q) * scale :=
  (congrFun ((outsAt0_C m c t h0 h3).trans
      (Stored.last c (grid0.coords t) (ms0_0 t) (hs0_0 t) (ms0_1 t) (hs0_1 t) _ _ (iblk m c 0 t)
        (outsAt0 m c (t.val - 1) (Nat.lt_of_le_of_lt (Nat.sub_le _ _) t.isLt)))) (ix2 p q)).trans
    ((rescale_apply (k0_pay2 (xblk m c t) (sums m c (before t).val (before t).isLt)) (ix2 p q)).trans
      (congrArg (· * scale) (update_apply (xblk m c t) (sums m c (before t).val (before t).isLt) p q)))

/-- At a last point the block holds the four tile sums, added in order from zero, rescaled. -/
theorem sums_at_last (c : Dev nD) (t : Fin cfg0.N) (h3 : t.val % 4 = 3) (p : Fin 8) (q : Fin 128) (b : Fin 32) (ch : Fin 256)
    (hb : b.val = (t.val / 8) * 8 + p.val) (hch : ch.val = ((t.val / 4) % 2) * 128 + q.val) :
    sums m c t.val t.isLt (ix2 p q)
      = ((((0 + tileSum m c b ch 0) + tileSum m c b ch 1) + tileSum m c b ch 2) + tileSum m c b ch 3) * scale := by
  have hN : cfg0.N = 32 := N_0
  have hlt : t.val < cfg0.N := t.isLt
  have v2 : (before t).val = t.val - 1 := rfl
  have v1 : (before (before t)).val = t.val - 1 - 1 := rfl
  have v0 : (before (before (before t))).val = t.val - 1 - 1 - 1 := rfl
  rw [sums_last m c t (by omega) h3 p q,
    sums_middle m c (before t) (by omega) (by omega) p q,
    sums_middle m c (before (before t)) (by omega) (by omega) p q,
    sums_first m c (before (before (before t))) (by omega) p q,
    blockSum_eq m c t p q b ch 3 (by omega) (by omega) (by show 3 = t.val % 4; omega),
    blockSum_eq m c (before t) p q b ch 2 (by omega) (by omega) (by show 2 = (before t).val % 4; omega),
    blockSum_eq m c (before (before t)) p q b ch 1 (by omega) (by omega) (by show 1 = (before (before t)).val % 4; omega),
    blockSum_eq m c (before (before (before t))) p q b ch 0 (by omega) (by omega) (by show 0 = (before (before (before t))).val % 4; omega)]

/-- The four tile sums are the sum over all 128 rows. -/
theorem tiles_eq_rows (c : Dev nD) (b : Fin 32) (ch : Fin 256) :
    (((0 + tileSum m c b ch 0) + tileSum m c b ch 1) + tileSum m c b ch 2) + tileSum m c b ch 3
      = ∑ h : Fin 128, ∑ w : Fin 128, xarr m c (ix4 b ch h w) := by
  rw [TiledSum.sum_fin_tiles 4 32 rfl (fun h : Fin 128 => ∑ w : Fin 128, xarr m c (ix4 b ch h w)), Fin.sum_univ_four, zero_add]
  rfl

/-! ## From the written blocks to the array -/

/-- What a last point leaves at entry j of its block is the pooled array at the entry's place in the whole array. -/
theorem block_entry (c : Dev nD) (t : Fin cfg0.N) (h3 : t.val % 4 = 3) (j : S8x128.Idx) (b : Fin 32) (ch : Fin 256)
    (hb : b.val = (t.val / 8) * 8 + (j 0).val) (hch : ch.val = ((t.val / 4) % 2) * 128 + (j 1).val) :
    sums m c t.val t.isLt j = Cert.MeanLaws.pooled (xarr m c) (ix2 b ch) := by
  obtain ⟨p, q, rfl⟩ : ∃ (p : Fin 8) (q : Fin 128), j = ix2 p q := ⟨j 0, j 1, eq_ix2 j⟩
  rw [sums_at_last m c t h3 p q b ch hb hch, tiles_eq_rows m c b ch]
  rfl

/-- WHAT A LAST POINT WRITES BACK is its block of the pooled array of x. -/
theorem written_eq (c : Dev nD) (t : Fin cfg0.N) (hf : (cfg0.win 1).flush t = true) :
    (dats m 0 c).flushed 1 t = ((cfg0.win 1).blk t).view.read (Elt Ideal) (Cert.MeanLaws.pooled (xarr m c)) := by
  have h3 : t.val % 4 = 3 := (flush0_1 t).mp hf
  have hN : cfg0.N = 32 := N_0
  have hlt : t.val < cfg0.N := t.isLt
  obtain ⟨o0, o1⟩ := where_out t
  show (cfg0.win 1).cut (grid0.coords t) ((dats m 0 c).after 1 t) = _
  rw [after0_1]
  funext j
  show outsAt0 m c t.val t.isLt j = Cert.MeanLaws.pooled (xarr m c) (((cfg0.win 1).blk t).view.emb j)
  have hj0 : (j 0).val < 8 := (j 0).isLt
  have hj1 : (j 1).val < 128 := (j 1).isLt
  refine (block_entry m c t h3 j ⟨(t.val / 8) * 8 + (j 0).val, by omega⟩ ⟨((t.val / 4) % 2) * 128 + (j 1).val, by omega⟩ rfl rfl).trans
    (congrArg (Cert.MeanLaws.pooled (xarr m c)) (funext fun a => Fin.ext ?_))
  match a with
  | ⟨0, _⟩ => show (t.val / 8) * 8 + (j 0).val = win0_1.index t (0 : Fin 2) * 8 + 1 * (j 0).val; omega
  | ⟨1, _⟩ => show ((t.val / 4) % 2) * 128 + (j 1).val = win0_1.index t (1 : Fin 2) * 128 + 1 * (j 1).val; omega

/-- Every entry (b, ch) of the array lies in the block some last point writes back: the one of batch block b / 8 and
    channel block ch / 128. -/
theorem covered (i : S32x256.Idx) :
    ∃ t : Fin cfg0.N, (cfg0.win 1).flush t = true ∧ i ∈ ((cfg0.win 1).blk t).view.set := by
  have hN : cfg0.N = 32 := N_0
  have hi0 : (i 0).val < 32 := (i 0).isLt
  have hi1 : (i 1).val < 256 := (i 1).isLt
  obtain ⟨t, tv⟩ : ∃ t : Fin cfg0.N, t.val = ((i 0).val / 8) * 8 + ((i 1).val / 128) * 4 + 3 :=
    ⟨⟨((i 0).val / 8) * 8 + ((i 1).val / 128) * 4 + 3, by omega⟩, rfl⟩
  obtain ⟨o0, o1⟩ := where_out t
  refine ⟨t, (flush0_1 t).mpr (by omega), ?_⟩
  show i ∈ ((View.whole main_v0).slice (win0_1.rect t)).set
  rw [View.set_slice_whole, Rect.mem_set_unit]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- So the array of means ends at the pooled array of x. -/
theorem array_eq (c : Dev nD) : (dats m 0 c).arrAt 1 cfg0.N = Cert.MeanLaws.pooled (xarr m c) :=
  (dats m 0 c).arrAt_eq_of_cover 1 (Cert.MeanLaws.pooled (xarr m c)) (written_eq m c) covered

end Cert.KernelIdeal.Pooled

end
-- ==== Proof.GateLaw.lean ====
/-
  The law that joins the two programs.

  With `pooled x` the mean of x over its two trailing axes and `g = 1 / (1 + e^(-Z))` a gate per (batch row, channel):

    * the reference's first mean, (0 + Σ x) / 16384, is `pooled x`;
    * the gate, spread over the two trailing axes, is at (b, c, h, w) the gate at (b, c);
    * so the reference's second mean, (0 + Σ_{h,w} x * g) / 16384, is `pooled x * g`, which is what the kernel computes:
      every entry of x is a real and the gate is a real at every Z, and over the reals the common factor g leaves the sum.
-/
import proofs.«115145_j31842887533075_1_alg».proof.Proof.MeanLaws
import Idealize.ShloMosaic.PureOps.Ideal.Laws
import Idealize.ShloMosaic.Lib.Pipeline.Value
import Idealize.ShloMosaic.Lib.ValueIdx

noncomputable section

namespace Cert.GateLaw

open Idealize.ShloMosaic Idealize.ShloMosaic.ValueIdx Cert.MeanLaws

/-- The gate with two unit axes appended, and the rank-zero shape of a scalar literal. -/
abbrev SG : Shape := ⟨4, ![32, 256, 1, 1]⟩
abbrev S0 : Shape := ⟨0, ![]⟩

/-- The gate 1 / (1 + e^(-Z)), as both programs spell it: negate, exponential, add one, divide one by it. -/
def gateOf (b1 : S0.BroadcastsInDim SM (![] : Fin 0 → Fin SM.rank)) (Z : FVec Ideal SM .f32) : FVec Ideal SM .f32 :=
  Host.divf (F := Ideal) (broadcastInDim SM ![] b1 (constant (F := Ideal) S0 .f32 0x3F800000#32))
    (addf (broadcastInDim SM ![] b1 (constant (F := Ideal) S0 .f32 0x3F800000#32)) (Host.exp (Host.negf Z)))

/-- Read at an index, the gate is 1 / (1 + e^(-Z j)). -/
theorem gateOf_apply (b1 : S0.BroadcastsInDim SM (![] : Fin 0 → Fin SM.rank)) (Z : FVec Ideal SM .f32) (j : SM.Idx) :
    gateOf b1 Z j = Ideal.div 1 (1 + Ideal.exp (-(Z j))) := by
  show Ideal.div (Ideal.ofBits .f32 0x3F800000#32) (Ideal.ofBits .f32 0x3F800000#32 + Ideal.exp (-(Z j))) = _
  rw [ofBits_one]

/-- The reference's first mean is the pooled array. -/
theorem ref_mean (hR : SX.ReducesTo [2, 3] SM) (hS : 0 < S0.numel) (b1 : S0.BroadcastsInDim SM (![] : Fin 0 → Fin SM.rank))
    (x : FVec Ideal SX .f32) :
    Host.divf (F := Ideal) (Host.reduceAdd (F := Ideal) x (constant (F := Ideal) S0 .f32 0x00000000#32) hR hS)
        (broadcastInDim SM ![] b1 (constant (F := Ideal) S0 .f32 0x46800000#32))
      = pooled x := by
  funext j
  show Ideal.div (Ideal.ofBits .f32 0x00000000#32 + ∑ i ∈ Finset.univ.filter (fun i => hR.drop i = j), x i)
    (Ideal.ofBits .f32 0x46800000#32) = _
  rw [Ideal.ofBits_zero_f32, ofBits_16384]
  exact mean_eq_pooled hR x j

/-- A [32,256] array given two unit axes and then spread over [32,256,128,128] holds, at (b, c, h, w), its entry (b, c). -/
theorem spread_apply (b3 : SM.BroadcastsInDim SG (![0, 1] : Fin 2 → Fin SG.rank))
    (b4 : SG.BroadcastsInDim SX (![0, 1, 2, 3] : Fin 4 → Fin SX.rank)) (G : SM.Idx → EReal) (i : SX.Idx) :
    broadcastInDim SX ![0, 1, 2, 3] b4 (broadcastInDim SG ![0, 1] b3 G) i = G (ix2 (i 0) (i 1)) := by
  refine (broadcastInDim_apply _ b4 _ i (ix4 (i 0) (i 1) 0 0) ?_).trans (broadcastInDim_apply _ b3 G _ (ix2 (i 0) (i 1)) ?_)
  · intro a
    match a with
    | ⟨0, _⟩ => rfl
    | ⟨1, _⟩ => rfl
    | ⟨2, _⟩ => rfl
    | ⟨3, _⟩ => rfl
  · intro a
    match a with
    | ⟨0, _⟩ => rfl
    | ⟨1, _⟩ => rfl

/-- An index that the sum over axes 2 and 3 collects at j has j as its first two coordinates. -/
theorem lead_of_drop (hR : SX.ReducesTo [2, 3] SM) (i : SX.Idx) (j : SM.Idx) (h : hR.drop i = j) : ix2 (i 0) (i 1) = j := by
  subst h
  funext a
  apply Fin.ext
  match a with
  | ⟨0, _⟩ => exact (drop_axis0 hR i).symm
  | ⟨1, _⟩ => exact (drop_axis1 hR i).symm

/-- THE LAW: when every entry of x is a real, the mean of x times the spread gate is the pooled array times the gate. -/
theorem gated_mean (hR : SX.ReducesTo [2, 3] SM) (hS : 0 < S0.numel) (b1 : S0.BroadcastsInDim SM (![] : Fin 0 → Fin SM.rank))
    (b3 : SM.BroadcastsInDim SG (![0, 1] : Fin 2 → Fin SG.rank)) (b4 : SG.BroadcastsInDim SX (![0, 1, 2, 3] : Fin 4 → Fin SX.rank))
    (x : FVec Ideal SX .f32) (hx : ∀ i, ∃ r : ℝ, x i = (r : EReal)) (Z : FVec Ideal SM .f32) :
    Host.divf (F := Ideal)
        (Host.reduceAdd (F := Ideal) (mulf x (broadcastInDim SX ![0, 1, 2, 3] b4 (broadcastInDim SG ![0, 1] b3 (gateOf b1 Z))))
          (constant (F := Ideal) S0 .f32 0x00000000#32) hR hS)
        (broadcastInDim SM ![] b1 (constant (F := Ideal) S0 .f32 0x46800000#32))
      = mulf (pooled x) (gateOf b1 Z) := by
  funext j
  obtain ⟨g, hg⟩ := gate_real (Z j)
  choose xr hxr using hx
  show Ideal.div (Ideal.ofBits .f32 0x00000000#32
      + ∑ i ∈ Finset.univ.filter (fun i => hR.drop i = j),
          x i * broadcastInDim SX ![0, 1, 2, 3] b4 (broadcastInDim SG ![0, 1] b3 (gateOf b1 Z)) i)
    (Ideal.ofBits .f32 0x46800000#32) = pooled x j * gateOf b1 Z j
  have e : ∀ i ∈ Finset.univ.filter (fun i => hR.drop i = j),
      x i * broadcastInDim SX ![0, 1, 2, 3] b4 (broadcastInDim SG ![0, 1] b3 (gateOf b1 Z)) i = (xr i : EReal) * (g : EReal) := by
    intro i hi
    have hj : ix2 (i 0) (i 1) = j := lead_of_drop hR i j (Finset.mem_filter.mp hi).2
    exact (congrArg (x i * ·) (spread_apply b3 b4 (gateOf b1 Z) i)).trans
      (congrArg₂ (· * ·) (hxr i) ((congrArg (gateOf b1 Z) hj).trans ((gateOf_apply b1 Z j).trans hg)))
  rw [Finset.sum_congr rfl e, Ideal.ofBits_zero_f32, ofBits_16384, pull_factor _ xr g 16384 (by norm_num), gateOf_apply, hg,
    ← mean_eq_pooled hR x j]
  exact congrArg (fun s => Ideal.div (0 + s) ((16384 : ℝ) : EReal) * (g : EReal)) (Finset.sum_congr rfl fun i _ => (hxr i).symm)

end Cert.GateLaw

end
-- ==== Proof.KernelResult.lean ====
/-
  The kernel's result: the host operations after the region, applied to the pooled array.

  After the region the array of means holds `pooled x`. The rest of the program computes, from it and the four small
  arguments,

      z = relu (f W1ᵀ) W2ᵀ,   g = 1 / (1 + e^(-z)),   result = (f * g) W3ᵀ + b3     (f = pooled x),

  each operation writing a buffer of its own and none touching an argument; so the result buffer ends at that term of
  the arguments' launch contents, and the arguments end unchanged.
-/
import proofs.«115145_j31842887533075_1_alg».proof.Proof.Pooled
import proofs.«115145_j31842887533075_1_alg».proof.Proof.GateLaw
import Idealize.ShloMosaic.Lib.StableHlo.Run

noncomputable section

namespace Cert.KernelIdeal.Result

open Idealize.ShloMosaic Idealize.ShloMosaic.TcCoe Idealize.SL.Sem Idealize.ShloMosaic.StableHlo
open Idealize.ShloMosaic.Pipeline (Dat)
open Cert.KernelIdeal Cert.KernelIdeal.Gen

/-- What the gate is the logistic of: relu (f W1ᵀ) W2ᵀ. -/
def preGate (f : FVec Ideal S32x256 .f32) (W1 : FVec Ideal S64x256 .f32) (W2 : FVec Ideal S256x64 .f32) : FVec Ideal S32x256 .f32 :=
  Host.dotGeneral (F := Ideal) dot_S32x64_S64x256_S32x256_1_0_0_1_n_n none
    (maximumf
      (Host.dotGeneral (F := Ideal) dot_S32x256_S256x64_S32x64_1_0_0_1_n_n none f (transpose S256x64 [1, 0] W1 transposes_S64x256_S256x64_1_0))
      (broadcastInDim S32x64 ![] bcast_S_S32x64 (constant (F := Ideal) S_ .f32 0x00000000#32)))
    (transpose S64x256 [1, 0] W2 transposes_S256x64_S64x256_1_0)

/-- The last projection: p W3ᵀ + b3. -/
def finish (p : FVec Ideal S32x256 .f32) (W3 : FVec Ideal S2x256 .f32) (b3 : FVec Ideal S2 .f32) : FVec Ideal S32x2 .f32 :=
  addf (Host.dotGeneral (F := Ideal) dot_S32x256_S256x2_S32x2_1_0_0_1_n_n none p (transpose S256x2 [1, 0] W3 transposes_S2x256_S256x2_1_0))
    (broadcastInDim S32x2 ![0, 1] bcast_S1x2_S32x2_0_1 (broadcastInDim S1x2 ![1] bcast_S2_S1x2_1 b3))

/-- The whole result as one function of the five arguments. -/
def result (x : FVec Ideal S32x256x128x128 .f32) (W1 : FVec Ideal S64x256 .f32) (W2 : FVec Ideal S256x64 .f32)
    (W3 : FVec Ideal S2x256 .f32) (b3 : FVec Ideal S2 .f32) : FVec Ideal S32x2 .f32 :=
  finish (mulf (Cert.MeanLaws.pooled x) (Cert.GateLaw.gateOf bcast_S_S32x256 (preGate (Cert.MeanLaws.pooled x) W1 W2))) W3 b3

variable (m : (ℓ : Loc nD τ sig) → Buf (Elt Ideal) ℓ) (ρ : Dev nD → PrngReg)

/-- The result buffer after the host operations that follow the region. -/
theorem tail_eq (c : Dev nD) :
    Pipeline.afterTail₀ cfgs (dats m) 0 (V0 m) [hostOps1, hostOps1_1, hostOps1_2] c main_v17
      = result (m ((c : Thread nD τ).loc main_arg0)) (m ((c : Thread nD τ).loc main_arg1)) (m ((c : Thread nD τ).loc main_arg2))
          (m ((c : Thread nD τ).loc main_arg3)) (m ((c : Thread nD τ).loc main_arg4)) := by
  have e0 : Pipeline.withArrays (cfgs 0).spec c (V0 m c) (fun w => (dats m 0 c).arrAt w (cfgs 0).N) (Proc.devRef .tc main_v0)
      = Cert.MeanLaws.pooled (m ((c : Thread nD τ).loc main_arg0)) :=
    (Pipeline.withArrays_arr spec0 launch0.win.arr_inj c (V0 m c) _ 1).trans
      ((Cert.KernelIdeal.Pooled.array_eq m c).trans (congrArg Cert.MeanLaws.pooled (V_main_arg0 m c)))
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by decide)).trans (V_main_arg1 m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by decide)).trans (V_main_arg2 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by decide)).trans (V_main_arg3 m c)
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by decide)).trans (V_main_arg4 m c)
  unfold Pipeline.afterTail₀
  simp only [hostOps1, hostOps1_1, hostOps1_2, List.flatten_cons, List.flatten_nil, List.append_nil, List.cons_append, List.nil_append]
  after_results_simp
  rw [e0, e1, e2, e3, e4]
  rfl

-- the launch theorem's implicit arguments are found by unifying plain definitions in a metavariable's type
set_option backward.isDefEq.respectTransparency.types false in
/-- The run, read: the result at `result` of the arguments' launch contents, the arguments unchanged. -/
theorem run : θ_run defs (onTc (τ := τ) (main (F := Ideal))) ⟨m, fun _ => 0, ρ⟩ fun r => ∀ c : Dev nD,
      r.2.mem ((c.tc : Thread nD τ).loc main_v17)
          = result (m ((c : Thread nD τ).loc main_arg0)) (m ((c : Thread nD τ).loc main_arg1)) (m ((c : Thread nD τ).loc main_arg2))
              (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v17 (Pipeline.mem_restRefs_of main_v17 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefRun.lean ====
/-
  The reference program's run, read back: every weakly fair execution of the reference terminates with its result
  array at one composed term of the argument arrays, the arguments unchanged.
-/
import proofs.«115145_j31842887533075_1_alg».proof.Proof.Gen.ReferenceIdeal.Run
-- ==== Proof.RefResult.lean ====
/-
  The reference's result, as the same function of the arguments as the kernel's.

  The reference computes f = mean of x over its two trailing axes, the gate g from f, then the mean of x * g (g spread
  over the trailing axes), and projects that. Its first mean is the pooled array; and when every entry of x is a real,
  the mean of x * g is the pooled array times g. So its result is (pooled x * g) W3ᵀ + b3 with g the gate of pooled x.
-/
import proofs.«115145_j31842887533075_1_alg».proof.Proof.RefRun
import proofs.«115145_j31842887533075_1_alg».proof.Proof.GateLaw

noncomputable section

namespace Cert.ReferenceIdeal.Result

open Idealize.ShloMosaic Idealize.ShloMosaic.TcCoe Idealize.SL.Sem
open Cert.ReferenceIdeal Cert.ReferenceIdeal.Gen

/-- What the gate is the logistic of: relu (f W1ᵀ) W2ᵀ. -/
def preGate (f : FVec Ideal S32x256 .f32) (W1 : FVec Ideal S64x256 .f32) (W2 : FVec Ideal S256x64 .f32) : FVec Ideal S32x256 .f32 :=
  Host.dotGeneral (F := Ideal) dot_S32x64_S64x256_S32x256_1_0_0_1_n_n none
    (maximumf
      (Host.dotGeneral (F := Ideal) dot_S32x256_S256x64_S32x64_1_0_0_1_n_n none f (transpose S256x64 [1, 0] W1 transposes_S64x256_S256x64_1_0))
      (broadcastInDim S32x64 ![] bcast_S_S32x64 (constant (F := Ideal) S_ .f32 0x00000000#32)))
    (transpose S64x256 [1, 0] W2 transposes_S256x64_S64x256_1_0)

/-- The last projection: p W3ᵀ + b3. -/
def finish (p : FVec Ideal S32x256 .f32) (W3 : FVec Ideal S2x256 .f32) (b3 : FVec Ideal S2 .f32) : FVec Ideal S32x2 .f32 :=
  addf (Host.dotGeneral (F := Ideal) dot_S32x256_S256x2_S32x2_1_0_0_1_n_n none p (transpose S256x2 [1, 0] W3 transposes_S2x256_S256x2_1_0))
    (broadcastInDim S32x2 ![0, 1] bcast_S1x2_S32x2_0_1 (broadcastInDim S1x2 ![1] bcast_S2_S1x2_1 b3))

/-- The reference's mean of x over its two trailing axes, as printed: zero plus the sum, divided by 16384. -/
def mean (x : FVec Ideal S32x256x128x128 .f32) : FVec Ideal S32x256 .f32 :=
  Host.divf (F := Ideal) (Host.reduceAdd (F := Ideal) x (constant (F := Ideal) S_ .f32 0x00000000#32) reducesTo_S32x256x128x128_S32x256_d2_3 h_S_)
    (broadcastInDim S32x256 ![] bcast_S_S32x256 (constant (F := Ideal) S_ .f32 0x46800000#32))

/-- A per-channel gate spread over the two trailing axes. -/
def spread (g : FVec Ideal S32x256 .f32) : FVec Ideal S32x256x128x128 .f32 :=
  broadcastInDim S32x256x128x128 ![0, 1, 2, 3] bcast_S32x256x1x1_S32x256x128x128_0_1_2_3
    (broadcastInDim S32x256x1x1 ![0, 1] bcast_S32x256_S32x256x1x1_0_1 g)

/-- The reference's result as its run states it, and as the kernel computes it. -/
theorem result_eq (x : FVec Ideal S32x256x128x128 .f32) (W1 : FVec Ideal S64x256 .f32) (W2 : FVec Ideal S256x64 .f32)
    (W3 : FVec Ideal S2x256 .f32) (b3 : FVec Ideal S2 .f32) (hx : ∀ i, ∃ r : ℝ, x i = (r : EReal)) :
    finish (mean (mulf x (spread (Cert.GateLaw.gateOf bcast_S_S32x256 (preGate (mean x) W1 W2))))) W3 b3
      = finish (mulf (Cert.MeanLaws.pooled x) (Cert.GateLaw.gateOf bcast_S_S32x256 (preGate (Cert.MeanLaws.pooled x) W1 W2))) W3 b3 := by
  have e1 : mean x = Cert.MeanLaws.pooled x :=
    Cert.GateLaw.ref_mean reducesTo_S32x256x128x128_S32x256_d2_3 h_S_ bcast_S_S32x256 x
  rw [e1]
  exact congrArg (fun p => finish p W3 b3)
    (Cert.GateLaw.gated_mean reducesTo_S32x256x128x128_S32x256_d2_3 h_S_ bcast_S_S32x256 bcast_S32x256_S32x256x1x1_0_1
      bcast_S32x256x1x1_S32x256x128x128_0_1_2_3 x hx (preGate (Cert.MeanLaws.pooled x) W1 W2))

end Cert.ReferenceIdeal.Result

end
-- ==== Proof.Finite.lean ====
/-
  The precondition read back: every entry of x is a real number.

  The precondition is the conjunction, over the five arguments, of "every |entry| is below +∞". Its first conjunct is
  about x; an extended real whose absolute value is below +∞ is neither infinity, so it is a real.
-/
import proofs.«115145_j31842887533075_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Reals

open Idealize.ShloMosaic Cert.Pre_finite_inputs

/-- The rank-zero shape has one index. -/
instance : Subsingleton S_.Idx := ⟨fun a b => funext fun d => d.elim0⟩

/-- The pattern 0x7F800000 denotes +∞. -/
theorem ofBits_inf : Ideal.ofBits .f32 0x7F800000#32 = ⊤ := by
  simp [Ideal.ofBits, Ideal.ieee]

/-- An extended real whose absolute value, max x (-x), is strictly below +∞ is a real. -/
theorem real_of_abs_lt_top (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- Under the precondition every entry of x is a real. -/
theorem x_real (x : FVec Ideal S32x256x128x128 .f32) (W1 : FVec Ideal S64x256 .f32) (W2 : FVec Ideal S256x64 .f32)
    (W3 : FVec Ideal S2x256 .f32) (b3 : FVec Ideal S2 .f32)
    (h : fn (F := Ideal) x W1 W2 W3 b3 = fun _ => 1#1) (i : S32x256x128x128.Idx) : ∃ r : ℝ, x i = (r : EReal) := by
  have h0 := congrFun h ValueIdx.ix0
  dsimp only [fn, fn_part1, andi] at h0
  have h1 := (IntOp.andi_eq_one.mp h0).1
  have h2 := (IntOp.andi_eq_one.mp h1).1
  have h3 := (IntOp.andi_eq_one.mp h2).1
  have h4 := (IntOp.andi_eq_one.mp h3).1
  have hx := Host.reduce_andi_all _ _ _ _ _ h4 i
  apply real_of_abs_lt_top
  rw [← ofBits_inf]
  exact hx

end Cert.Pre_finite_inputs.Reals

end
-- ==== Proof.lean ====
/-
  A global average pool with a channel gate, against its reference, over the extended reals.

  The kernel pools x : [32, 256, 128, 128] over its two trailing axes on a 4 × 2 × 4 grid (the last axis walks the 128
  rows in four tiles of 32, accumulating into an 8 × 128 block that is cleared at the first tile and scaled by 2^(-14)
  at the last), and then computes on the host

      f = pooled x,   g = 1 / (1 + e^(-relu (f W1ᵀ) W2ᵀ)),   result = (f * g) W3ᵀ + b3.

  The reference computes the same f as (0 + Σ x) / 16384, the same g, and then the mean of x * g over the trailing axes
  in place of f * g. The two results are equal because

    * a sum of extended reals may be taken tile by tile, and dividing by 16384 is multiplying by 2^(-14), its exact
      reciprocal (no finiteness is used for f);
    * every entry of x is a real (the precondition), and g is a real whatever its argument (0 at -∞, 1 at +∞), so the
      common factor g leaves the finite sum: (0 + Σ x * g) / 16384 = ((0 + Σ x) / 16384) * g.

  The three frames are the generated runs; the idealization rewrote nothing.
-/
import proofs.«115145_j31842887533075_1_alg».proof.Defs
import proofs.«115145_j31842887533075_1_alg».proof.Proof.Gen.Kernel
import proofs.«115145_j31842887533075_1_alg».proof.Proof.Gen.Kernel.Frame
import proofs.«115145_j31842887533075_1_alg».proof.Proof.Gen.KernelIdeal
import proofs.«115145_j31842887533075_1_alg».proof.Proof.Gen.KernelIdeal.Frame
import proofs.«115145_j31842887533075_1_alg».proof.Proof.Gen.ReferenceIdeal
import proofs.«115145_j31842887533075_1_alg».proof.Proof.Gen.Pre_finite_inputs
import proofs.«115145_j31842887533075_1_alg».proof.Proof.KernelResult
import proofs.«115145_j31842887533075_1_alg».proof.Proof.RefResult
import proofs.«115145_j31842887533075_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at `(pooled x * g) W3ᵀ + b3`, g the gate of `pooled x`. -/
theorem algebraic : Cert.algebraic_KernelIdeal_ReferenceIdeal := by
  intro m ρ m' ρ' hpre hagree
  refine ⟨fun c => Cert.KernelIdeal.Result.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Result.result_eq _ _ _ _ _
    (Cert.Pre_finite_inputs.Reals.x_real _ _ _ _ _ (hpre c))).trans rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
